-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : IVec S4096x4096 32) (main_arg2 : FVec F S4096x1 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S4096x1 : Shape := ⟨2, ![4096, 1]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S16384x4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x4096x4096_S16384x4096 : S4x4096x4096.ShapeCasts S16384x4096
  shapeCasts_S4096x1_S4096 : S4096x1.ShapeCasts S4096
  bcast_S4096_S1x4096_1 : S4096.BroadcastsInDim S1x4096 (![1] : Fin 1 → Fin S1x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S16384x4096_S4x4096x4096 : S16384x4096.ShapeCasts S4x4096x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S16384x4096.size a
  hwx0_4 : ∀ i : grid0.Coords, EltTy.bits .f32 = 32 ∨ (Rect.block (s := S16384x4096) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4096, .f32⟩
  | .hbm, ⟨30, _⟩ => ⟨S1x1x4096, .f32⟩
  | .hbm, ⟨31, _⟩ => ⟨S4x4096x4096, .f32⟩
  | .hbm, ⟨32, _⟩ => ⟨S4x4096x4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  shapeCasts_S4096x1_S4096 : S4096x1.ShapeCasts S4096
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.QuantSpec.lean ====
/-
  Per-token absmax int8 quantisation followed by an integer-valued GEMM and dequantisation, as ONE function of a row.

  For an activation row `x : Fin 4096 → EReal`:
    absmax(x)   = max over k of |x k|, taken from −∞;
    step(x)     = max (absmax(x) / 127) ε, with ε the f32 nearest 1e-8;
    q(x) k      = min 127 (max (−128) (roundHalfEven (x k / step(x))));
  and for a weight row `w : Fin 4096 → BitVec 32` (signed integers), a channel scale `s` and a bias `b`:
    out         = ((∑ k, q(x) k · w k) · step(x)) · s + b.

  Both programs compute exactly this expression, operation for operation, on the extended reals; what differs between
  them is only how the rows are laid out (a [4,4096,4096] array against its [16384,4096] reshape cut into 256-row
  blocks), the order in which the 4096 products are summed and the order in which the 4096 magnitudes are compared:
  addition and `max` on the extended reals are commutative and associative, so neither order matters, and no
  finiteness of the inputs is used.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.QuantLinear

open Idealize.ShloMosaic Idealize.ShloMosaic.ValueIdx

/-- The largest magnitude among a row's 4096 entries, the comparison started from the value of the pattern
    `0xFF800000` (−∞). -/
def rowAbsMax (row : Fin 4096 → EReal) : EReal :=
  (Finset.univ : Finset (Fin 4096)).fold max (Ideal.ofBits .f32 0xFF800000#32) (fun k => max (row k) (-(row k)))

/-- The row's quantisation step: its largest magnitude over 127 (pattern `0x42FE0000`), but no smaller than the f32
    nearest `1e-8` (pattern `0x322BCC77`). -/
def rowStep (row : Fin 4096 → EReal) : EReal :=
  max (Ideal.div (rowAbsMax row) (Ideal.ofBits .f32 0x42FE0000#32)) (Ideal.ofBits .f32 0x322BCC77#32)

/-- One entry quantised with step `a`: the quotient rounded to the nearest integer, ties to even, then clipped to
    `[−128, 127]` (patterns `0xC3000000`, `0x42FE0000`). -/
def quantize (a x : EReal) : EReal :=
  min (Ideal.ofBits .f32 0x42FE0000#32)
    (max (Ideal.ofBits .f32 0xC3000000#32) (Ideal.liftRound Ideal.roundHalfEven (Ideal.div x a)))

/-- One output entry: the quantised row against the signed weight row, dequantised by the row's step and the channel's
    scale, plus the channel's bias. -/
def outEntry (row : Fin 4096 → EReal) (wrow : Fin 4096 → BitVec 32) (s b : EReal) : EReal :=
  (∑ k : Fin 4096, quantize (rowStep row) (row k) * (((wrow k).toInt : ℝ) : EReal)) * rowStep row * s + b

/-! ## A row's maximum magnitude, as each program takes it -/

/-- Over a 256-row block: the lane reduction by `max` along axis 1 of the magnitudes, from −∞, read at row `p`, is the
    row's largest magnitude. -/
theorem blockRowMax (v : FVec Ideal ⟨2, ![256, 4096]⟩ .f32)
    (h : Shape.Reduces ⟨2, ![256, 4096]⟩ [1] ⟨1, ![256]⟩) (hφ : FKind.Formats .f32)
    (hacc : (0xFF800000#32 : BitVec 32) = FKind.maximumf.neutral .f32 hφ) (p : Fin 256) :
    multiReduction .maximumf [1] ⟨1, ![256]⟩ (absf v) 0xFF800000#32 h hφ hacc (ix1 p)
      = rowAbsMax (fun k => v (ix2 p k)) := by
  rw [Ideal.multiReduction_maximumf_single]
  have e : ∀ k : Fin 4096, h.lift (ix1 p) k = ix2 p k := fun k => funext fun c => Fin.ext (by
    match c with
    | ⟨0, _⟩ => rfl
    | ⟨1, _⟩ => rfl)
  show (Finset.univ : Finset (Fin 4096)).fold max (Ideal.ofBits .f32 0xFF800000#32)
      (fun k => max (v (h.lift (ix1 p) k)) (-(v (h.lift (ix1 p) k)))) = _
  unfold rowAbsMax
  exact congrArg (fun f : Fin 4096 → EReal => Finset.fold max (Ideal.ofBits .f32 0xFF800000#32) f Finset.univ)
    (funext fun k => congrArg (fun i => max (v i) (-(v i))) (e k))

/-- Over the whole [4, 4096, 4096] array: the host's reduction by `max` along axis 2 of the magnitudes, from a scalar
    −∞, read at `(b, r)`, is that row's largest magnitude. -/
theorem arrayRowMax (x : FVec Ideal ⟨3, ![4, 4096, 4096]⟩ .f32)
    (h' : Shape.ReducesTo ⟨3, ![4, 4096, 4096]⟩ [2] ⟨2, ![4, 4096]⟩)
    (h : Shape.Reduces ⟨3, ![4, 4096, 4096]⟩ [2] ⟨2, ![4, 4096]⟩)
    (hu : 0 < (⟨0, ![]⟩ : Shape).numel) (b : Fin 4) (r : Fin 4096) :
    Host.reduce FloatOps.maximumf (Host.absf x) (constant (F := Ideal) ⟨0, ![]⟩ .f32 0xFF800000#32) h' hu (ix2 b r)
      = rowAbsMax (fun k => x (ix3 b r k)) := by
  rw [Host.reduce_eq_fold_single FloatOps.maximumf _ _ h' h hu]
  have e : ∀ k : Fin 4096, h.lift (ix2 b r) k = ix3 b r k := fun k => funext fun c => Fin.ext (by
    match c with
    | ⟨0, _⟩ => rfl
    | ⟨1, _⟩ => rfl
    | ⟨2, _⟩ => rfl)
  show (Finset.univ : Finset (Fin 4096)).fold max (Ideal.ofBits .f32 0xFF800000#32)
      (fun k => max (x (h.lift (ix2 b r) k)) (-(x (h.lift (ix2 b r) k)))) = _
  unfold rowAbsMax
  exact congrArg (fun f : Fin 4096 → EReal => Finset.fold max (Ideal.ofBits .f32 0xFF800000#32) f Finset.univ)
    (funext fun k => congrArg (fun i => max (x i) (-(x i))) (e k))

/-! ## The layer over whole arrays, in the two layouts -/

/-- Over a [16384, 4096] activation matrix, a [4096, 4096] integer weight matrix and one-row scale and bias arrays:
    entry `(r, n)` is `outEntry` of activation row `r`, weight row `n`, and column `n` of the two rows. -/
def layer2 (X : (⟨2, ![16384, 4096]⟩ : Shape).Idx → EReal) (W : (⟨2, ![4096, 4096]⟩ : Shape).Idx → BitVec 32)
    (Srow Brow : (⟨2, ![1, 4096]⟩ : Shape).Idx → EReal) : (⟨2, ![16384, 4096]⟩ : Shape).Idx → EReal :=
  fun i => outEntry (fun k => X (ix2 (i 0) k)) (fun k => W (ix2 (i 1) k)) (Srow (ix2 0 (i 1))) (Brow (ix2 0 (i 1)))

/-- Over a [4, 4096, 4096] activation array, the weight matrix, a [4096, 1] scale column and a [4096] bias vector:
    entry `(b, r, n)` is `outEntry` of activation row `(b, r)`, weight row `n`, scale `n` and bias `n`. -/
def layer3 (x : (⟨3, ![4, 4096, 4096]⟩ : Shape).Idx → EReal) (w : (⟨2, ![4096, 4096]⟩ : Shape).Idx → BitVec 32)
    (s : (⟨2, ![4096, 1]⟩ : Shape).Idx → EReal) (b : (⟨1, ![4096]⟩ : Shape).Idx → EReal) :
    (⟨3, ![4, 4096, 4096]⟩ : Shape).Idx → EReal :=
  fun i => outEntry (fun k => x (ix3 (i 0) (i 1) k)) (fun k => w (ix2 (i 2) k)) (s (ix2 (i 2) 0)) (b (ix1 (i 2)))

/-- The two layouts agree: flatten the activations' two leading axes, lay the scale column and the bias vector out as
    rows, apply the layer to the matrix, and split the leading axis of the result again. Row `(b, r)` of the array is
    row `4096·b + r` of the matrix, and nothing else moves. -/
theorem layer2_of_flat (x : (⟨3, ![4, 4096, 4096]⟩ : Shape).Idx → EReal) (w : (⟨2, ![4096, 4096]⟩ : Shape).Idx → BitVec 32)
    (s : (⟨2, ![4096, 1]⟩ : Shape).Idx → EReal) (b : (⟨1, ![4096]⟩ : Shape).Idx → EReal)
    (hflat : (⟨3, ![4, 4096, 4096]⟩ : Shape).ShapeCasts ⟨2, ![16384, 4096]⟩)
    (hsplit : (⟨2, ![16384, 4096]⟩ : Shape).ShapeCasts ⟨3, ![4, 4096, 4096]⟩)
    (hcol : (⟨2, ![4096, 1]⟩ : Shape).ShapeCasts ⟨1, ![4096]⟩)
    (hrow : (⟨1, ![4096]⟩ : Shape).BroadcastsInDim ⟨2, ![1, 4096]⟩ (![1] : Fin 1 → Fin 2)) :
    shapeCast ⟨3, ![4, 4096, 4096]⟩
        (layer2 (shapeCast ⟨2, ![16384, 4096]⟩ x hflat) w
          (broadcastInDim ⟨2, ![1, 4096]⟩ ![1] hrow (shapeCast ⟨1, ![4096]⟩ s hcol))
          (broadcastInDim ⟨2, ![1, 4096]⟩ ![1] hrow b)) hsplit
      = layer3 x w s b := by
  funext i
  obtain ⟨bb, r, n, rfl⟩ : ∃ (bb : Fin 4) (r n : Fin 4096), i = ix3 bb r n := ⟨i 0, i 1, i 2, eq_ix3 i⟩
  have hbb : bb.val < 4 := bb.isLt
  have hr : r.val < 4096 := r.isLt
  rw [shapeCast_apply _ hsplit (ix3 bb r n) (ix2 (⟨bb.val * 4096 + r.val, by omega⟩ : Fin 16384) n)
    (by rw [Shape.rowMajor_val_two, Shape.rowMajor_val_three]; rfl)]
  have hx : ∀ k : Fin 4096, shapeCast ⟨2, ![16384, 4096]⟩ x hflat (ix2 (⟨bb.val * 4096 + r.val, by omega⟩ : Fin 16384) k)
      = x (ix3 bb r k) := fun k =>
    shapeCast_apply x hflat _ _ (by rw [Shape.rowMajor_val_three, Shape.rowMajor_val_two]; rfl)
  have hs : broadcastInDim ⟨2, ![1, 4096]⟩ ![1] hrow (shapeCast ⟨1, ![4096]⟩ s hcol) (ix2 0 n) = s (ix2 n 0) :=
    (broadcastInDim_apply _ hrow _ (ix2 0 n) (ix1 n) (fun a => match a with
      | ⟨0, _⟩ => by show n.val = if (4096 : Nat) = 1 then 0 else n.val; rw [if_neg (by decide)])).trans
    (shapeCast_apply s hcol (ix1 n) (ix2 n 0) (by
      rw [Shape.rowMajor_val_two, Shape.rowMajor_val_one]; show n.val * 1 + 0 = n.val; omega))
  have hb : broadcastInDim ⟨2, ![1, 4096]⟩ ![1] hrow b (ix2 0 n) = b (ix1 n) :=
    broadcastInDim_apply _ hrow _ (ix2 0 n) (ix1 n) (fun a => match a with
      | ⟨0, _⟩ => by show n.val = if (4096 : Nat) = 1 then 0 else n.val; rw [if_neg (by decide)])
  show outEntry (fun k => shapeCast ⟨2, ![16384, 4096]⟩ x hflat (ix2 (⟨bb.val * 4096 + r.val, by omega⟩ : Fin 16384) k))
      (fun k => w (ix2 n k))
      (broadcastInDim ⟨2, ![1, 4096]⟩ ![1] hrow (shapeCast ⟨1, ![4096]⟩ s hcol) (ix2 0 n))
      (broadcastInDim ⟨2, ![1, 4096]⟩ ![1] hrow b (ix2 0 n))
    = outEntry (fun k => x (ix3 bb r k)) (fun k => w (ix2 n k)) (s (ix2 n 0)) (b (ix1 n))
  rw [hs, hb]
  simp only [hx]

end Cert.QuantLinear

end
-- ==== Proof.KernelEntry.lean ====
/-
  One entry of the kernel body's stored block, on the extended reals.

  The body takes a 256-row block `x` of activations, a 256-row block `w` of integer weights and the matching 256
  columns of the scale row and of the bias row. At block position `(p, q)` it stores
      ((∑ k, quantize step_p (x p k) · w q k) · step_p) · scale q + bias q,
  with `step_p` the quantisation step of row `p` of `x`: the function `outEntry` of the specification, of row `p` of the
  activation block and row `q` of the weight block. The proof reads the body's operations at the index one at a
  time: the lane maximum is the row's fold of `max`; a [256] vector cast to a [256, 1] column and broadcast along the
  lanes is constant along each row; a [1, 256] row broadcast down the sublanes is constant along each column; the
  matrix product into a zero accumulator, contracting axis 1 of both operands, is the sum over the 4096 shared
  coordinates; narrowing to bf16 is the identity on the extended reals.
-/
import proofs.«144594_j71725953843873_1_alg».proof.Proof.Gen.KernelIdeal.Skeleton
import proofs.«144594_j71725953843873_1_alg».proof.Proof.QuantSpec
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx Cert.QuantLinear

/-! ## The contraction: axis 1 of both operands -/

theorem lhs_dot_0 (i : S256x256.Idx) (c : dot_S256x4096_S256x4096_S256x256_1_1_0_0_n_n.contr.Idx) :
    (dot_S256x4096_S256x4096_S256x256_1_1_0_0_n_n.lhsIdx i c 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
theorem lhs_dot_1 (i : S256x256.Idx) (c : dot_S256x4096_S256x4096_S256x256_1_1_0_0_n_n.contr.Idx) :
    (dot_S256x4096_S256x4096_S256x256_1_1_0_0_n_n.lhsIdx i c 1).val = (c ⟨0, by decide⟩).val :=
  dot_S256x4096_S256x4096_S256x256_1_1_0_0_n_n.lhsIdx_val_of_single rfl i c
theorem rhs_dot_0 (i : S256x256.Idx) (c : dot_S256x4096_S256x4096_S256x256_1_1_0_0_n_n.contr.Idx) :
    (dot_S256x4096_S256x4096_S256x256_1_1_0_0_n_n.rhsIdx i c 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
theorem rhs_dot_1 (i : S256x256.Idx) (c : dot_S256x4096_S256x4096_S256x256_1_1_0_0_n_n.contr.Idx) :
    (dot_S256x4096_S256x4096_S256x256_1_1_0_0_n_n.rhsIdx i c 1).val = (c ⟨0, by decide⟩).val :=
  dot_S256x4096_S256x4096_S256x256_1_1_0_0_n_n.rhsIdx_val_of_single rfl i c

/-- The block product into the zero accumulator, at `(p, q)`: row `p` of the left operand against row `q` of the
    right one, summed over the 4096 shared coordinates. -/
theorem blockDot (l r : FVec Ideal S256x4096 .bf16) (p q : Fin 256) :
    matmul dot_S256x4096_S256x4096_S256x256_1_1_0_0_n_n none l r (constant S256x256 .f32 0x00000000#32) (ix2 p q)
      = ∑ k : Fin 4096, l (ix2 p k) * r (ix2 q k) := by
  simp only [matmul]
  rw [Ideal.matmul_constant_zero_apply,
    ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q)
      ((contrEquiv1 dot_S256x4096_S256x4096_S256x256_1_1_0_0_n_n 4096 rfl rfl).symm k) = ix2 p k :=
    funext fun a => Fin.ext (by
      match a with
      | ⟨0, _⟩ => exact lhs_dot_0 _ _
      | ⟨1, _⟩ => exact (lhs_dot_1 _ _).trans hk)
  have er : dot_S256x4096_S256x4096_S256x256_1_1_0_0_n_n.rhsIdx (ix2 p q)
      ((contrEquiv1 dot_S256x4096_S256x4096_S256x256_1_1_0_0_n_n 4096 rfl rfl).symm k) = ix2 q k :=
    funext fun a => Fin.ext (by
      match a with
      | ⟨0, _⟩ => exact rhs_dot_0 _ _
      | ⟨1, _⟩ => exact (rhs_dot_1 _ _).trans hk)
  rw [el, er]

/-! ## Columns and rows -/

variable {α : Type}

/-- A [256] vector cast to a [256, 1] column reads, at `(p, ·)`, the vector at `p`. -/
theorem colOfVec_apply (y : S256.Idx → α) (h : S256.ShapeCasts S256x1) (p : Fin 256) (z : Fin 1) :
    shapeCast S256x1 y h (ix2 p z) = y (ix1 p) :=
  shapeCast_apply y h _ _ (by
    rw [Shape.rowMajor_val_one, Shape.rowMajor_val_two]
    show p.val = p.val * 1 + z.val
    omega)

/-- A [256, 1] column broadcast along 4096 lanes is constant along each row. -/
theorem colWide_apply (y : S256x1.Idx → α) (h : S256x1.Broadcasts S256x4096) (p : Fin 256) (k : Fin 4096) :
    broadcastTo S256x4096 y h (ix2 p k) = y (ix2 p 0) :=
  broadcastTo_apply y h _ _ (fun a => match a with
    | ⟨0, _⟩ => by show p.val = if (256 : Nat) = 1 then 0 else p.val; rw [if_neg (by decide)]
    | ⟨1, _⟩ => by show 0 = if (1 : Nat) = 1 then 0 else k.val; rw [if_pos rfl])

/-- The same column broadcast along 256 lanes. -/
theorem colBlock_apply (y : S256x1.Idx → α) (h : S256x1.Broadcasts S256x256) (p q : Fin 256) :
    broadcastTo S256x256 y h (ix2 p q) = y (ix2 p 0) :=
  broadcastTo_apply y h _ _ (fun a => match a with
    | ⟨0, _⟩ => by show p.val = if (256 : Nat) = 1 then 0 else p.val; rw [if_neg (by decide)]
    | ⟨1, _⟩ => by show 0 = if (1 : Nat) = 1 then 0 else q.val; rw [if_pos rfl])

/-- A [1, 256] row broadcast down 256 sublanes is constant along each column. -/
theorem rowBlock_apply (y : S1x256.Idx → α) (h : S1x256.Broadcasts S256x256) (p q : Fin 256) :
    broadcastTo S256x256 y h (ix2 p q) = y (ix2 0 q) :=
  broadcastTo_apply y h _ _ (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The step column and the quantised block -/

/-- The column of quantisation steps the body computes from the activation block, at row `p`: that row's step. -/
theorem stepCol_apply (x : FVec Ideal S256x4096 .f32) (hR : S256x4096.Reduces [1] S256) (hφ : FKind.Formats .f32)
    (hacc : (0xFF800000#32 : BitVec 32) = FKind.maximumf.neutral .f32 hφ) (hc : S256.ShapeCasts S256x1)
    (p : Fin 256) (z : Fin 1) :
    maximumf
        (divf (shapeCast S256x1 (multiReduction .maximumf [1] S256 (absf x) 0xFF800000#32 hR hφ hacc) hc)
          (broadcast S256x1 (FloatOps.ofBits .f32 0x42FE0000#32)))
        (broadcast S256x1 (FloatOps.ofBits .f32 0x322BCC77#32)) (ix2 p z)
      = rowStep (fun k => x (ix2 p k)) := by
  show max (Ideal.div (shapeCast S256x1 (multiReduction .maximumf [1] S256 (absf x) 0xFF800000#32 hR hφ hacc) hc (ix2 p z))
      (Ideal.ofBits .f32 0x42FE0000#32)) (Ideal.ofBits .f32 0x322BCC77#32) = _
  rw [colOfVec_apply, blockRowMax]
  rfl

/-- The quantised activation block at `(p, k)`, for any column `col` of steps: the entry quantised with its row's step. -/
theorem quantBlock_apply (x : FVec Ideal S256x4096 .f32) (col : FVec Ideal S256x1 .f32) (hb : S256x1.Broadcasts S256x4096)
    (hlt : FTy.bits .bf16 < FTy.bits .f32) (p : Fin 256) (k : Fin 4096) :
    truncf .bf16
        (minimumf (broadcast S256x4096 (FloatOps.ofBits .f32 0x42FE0000#32))
          (maximumf (broadcast S256x4096 (FloatOps.ofBits .f32 0xC3000000#32))
            (roundeven (divf x (broadcastTo S256x4096 col hb))))) hlt (ix2 p k)
      = quantize (col (ix2 p 0)) (x (ix2 p k)) := by
  show min (Ideal.ofBits .f32 0x42FE0000#32) (max (Ideal.ofBits .f32 0xC3000000#32)
      (Ideal.liftRound Ideal.roundHalfEven (Ideal.div (x (ix2 p k)) (broadcastTo S256x4096 col hb (ix2 p k))))) = _
  rw [colWide_apply]
  rfl

/-! ## The stored block at an index -/

/-- What the body stores at `(p, q)` of the output block: `outEntry` of row `p` of the activation block, row `q` of the
    weight block, and column `q` of the scale and bias rows. -/
theorem pay_apply (x0 : Vec Ideal S256x4096 .f32) (x1 : Vec Ideal S256x4096 .i32) (x2 x3 : Vec Ideal S1x256 .f32)
    (p q : Fin 256) :
    k0_pay1 (F := Ideal) x0 x1 x2 x3 (ix2 p q)
      = outEntry (fun k => x0 (ix2 p k)) (fun k => x1 (ix2 q k)) (x2 (ix2 0 q)) (x3 (ix2 0 q)) := by
  have hs := stepCol_apply x0 reduces_S256x4096_S256 (.inl rfl) rfl shapeCasts_S256_S256x1 p 0
  unfold k0_pay1
  simp only [shapeCast_self]
  rw [addf_apply, mulf_apply, mulf_apply, blockDot, colBlock_apply, rowBlock_apply, rowBlock_apply, hs]
  unfold outEntry
  refine congrArg (fun s => s * rowStep (fun k => x0 (ix2 p k)) * x2 (ix2 0 q) + x3 (ix2 0 q)) ?_
  refine Finset.sum_congr rfl fun k _ => ?_
  rw [quantBlock_apply, hs]
  rfl

end Cert.KernelIdeal.Entry

end
-- ==== Proof.KernelArray.lean ====
/-
  The kernel region's output array as one function of the arrays the region finds.

  The grid has 64 × 16 points; point `t` = (t / 16, t % 16) reads rows `256·(t/16) …` of the activations (all 4096
  columns), rows `256·(t%16) …` of the weights (all 4096 columns), columns `256·(t%16) …` of the one-row scale and bias
  arrays, and writes block `(t/16, t%16)` of the [16384, 4096] output. Entry `(r, n)` of the output therefore depends on
  row `r` of the activations, row `n` of the weights and column `n` of the two rows only: it is `outEntry` of those, and
  the 1024 blocks tile the output, so the whole array is that function.
-/
import proofs.«144594_j71725953843873_1_alg».proof.Proof.Gen.KernelIdeal.Frame
import proofs.«144594_j71725953843873_1_alg».proof.Proof.KernelEntry
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (m : (ℓ : Loc nD τ sig) → Buf (Elt Ideal) ℓ) (ρ : Dev nD → PrngReg)

theorem zeroOff : (![0, 0] : Fin 2 → Nat) = fun _ => 0 := funext fun a => by fin_cases a <;> rfl

/-- The printed index maps over the grid: the activation window follows the output's row block and takes every column,
    the weight window's ROW block is the output's COLUMN block, the scale and bias windows follow the output's column
    block; the output's block is `(t / 16, t % 16)`. -/
theorem blockIdx : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = win0_4.index t (1 : Fin 2)
    ∧ win0_4.index t (0 : Fin 2) = t.val / 16
    ∧ win0_4.index t (1 : Fin 2) = t.val % 16 :=
  (by decide +kernel : ∀ t : Fin grid0.N, _)

/-- WHAT POINT `t` WRITES BACK is block `t` of `layer2` of the arrays as the region finds them. -/
theorem flushed_eq (c : Dev nD) (t : Fin cfg0.N) :
    (dats m 0 c).flushed 4 t
      = ((cfg0.win 4).blk t).view.read (Elt Ideal)
          (layer2 (V m c main_v0) (V m c main_arg1) (V m c main_v2) (V m c main_v3)) := by
  show (cfg0.win 4).cut (grid0.coords t) ((dats m 0 c).after 4 t) = _
  rw [after0_4]
  unfold out0_4
  rw [View.canon_unit_zero zeroOff]
  simp only [View.ld_unit_zero (S := S256x4096) zeroOff, View.ld_unit_zero (S := S1x256) zeroOff]
  obtain ⟨e00, e01, e10, e11, e20, e21, e30, e31, -, -⟩ := blockIdx t
  funext j
  obtain ⟨p, q, rfl⟩ : ∃ (p q : Fin 256), j = ix2 p q := ⟨j 0, j 1, eq_ix2 j⟩
  refine (Cert.KernelIdeal.Entry.pay_apply (iblk m c 0 t) (iblk m c 1 t) (iblk m c 2 t) (iblk m c 3 t) p q).trans ?_
  show outEntry (fun k => V m c main_v0 (((cfg0.win 0).blk t).view.emb (ix2 p k)))
      (fun k => V m c main_arg1 (((cfg0.win 1).blk t).view.emb (ix2 q k)))
      (V m c main_v2 (((cfg0.win 2).blk t).view.emb (ix2 0 q)))
      (V m c main_v3 (((cfg0.win 3).blk t).view.emb (ix2 0 q)))
    = outEntry (fun k => V m c main_v0 (ix2 ((((cfg0.win 4).blk t).view.emb (ix2 p q)) 0) k))
      (fun k => V m c main_arg1 (ix2 ((((cfg0.win 4).blk t).view.emb (ix2 p q)) 1) k))
      (V m c main_v2 (ix2 0 ((((cfg0.win 4).blk t).view.emb (ix2 p q)) 1)))
      (V m c main_v3 (ix2 0 ((((cfg0.win 4).blk t).view.emb (ix2 p q)) 1)))
  have h0 : ∀ k : Fin 4096, ((cfg0.win 0).blk t).view.emb (ix2 p k) = ix2 ((((cfg0.win 4).blk t).view.emb (ix2 p q)) 0) k := by
    intro k; funext a; apply Fin.ext
    match a with
    | ⟨0, _⟩ => show win0_0.index t (0 : Fin 2) * 256 + 1 * p.val = win0_4.index t (0 : Fin 2) * 256 + 1 * p.val; omega
    | ⟨1, _⟩ => show win0_0.index t (1 : Fin 2) * 4096 + 1 * k.val = k.val; omega
  have h1 : ∀ k : Fin 4096, ((cfg0.win 1).blk t).view.emb (ix2 q k) = ix2 ((((cfg0.win 4).blk t).view.emb (ix2 p q)) 1) k := by
    intro k; funext a; apply Fin.ext
    match a with
    | ⟨0, _⟩ => show win0_1.index t (0 : Fin 2) * 256 + 1 * q.val = win0_4.index t (1 : Fin 2) * 256 + 1 * q.val; omega
    | ⟨1, _⟩ => show win0_1.index t (1 : Fin 2) * 4096 + 1 * k.val = k.val; omega
  have h2 : ((cfg0.win 2).blk t).view.emb (ix2 0 q) = ix2 0 ((((cfg0.win 4).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_4.index t (1 : Fin 2) * 256 + 1 * q.val; omega
  have h3 : ((cfg0.win 3).blk t).view.emb (ix2 0 q) = ix2 0 ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 256 + 1 * q.val = win0_4.index t (1 : Fin 2) * 256 + 1 * q.val; omega
  rw [h2, h3]
  simp only [h0, h1]
  rfl

/-- An index of the output is in point `t`'s block iff each coordinate is in the block's range on its axis. -/
theorem mem_blk (t : Fin cfg0.N) (i : S16384x4096.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v4).slice (win0_4.rect t)).set ↔ _
  rw [View.set_slice_whole, Rect.mem_set_unit]
  exact Iff.rfl

/-- Every index `(r, n)` of the output is in the block of the point `16·(r / 256) + n / 256`. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 1024 := N_0
  let t : Fin cfg0.N := ⟨(i 0).val / 256 * 16 + (i 1).val / 256, by rw [hN]; omega⟩
  refine ⟨t, flush0_4 t, ?_⟩
  obtain ⟨-, -, -, -, -, -, -, -, e40, e41⟩ := blockIdx t
  have ht : t.val = (i 0).val / 256 * 16 + (i 1).val / 256 := rfl
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE OUTPUT ARRAY after the region: `layer2` of the arrays as the region finds them. -/
theorem final (c : Dev nD) :
    (dats m 0 c).arrAt 4 cfg0.N = layer2 (V m c main_v0) (V m c main_arg1) (V m c main_v2) (V m c main_v3) :=
  (dats m 0 c).arrAt_eq_of_cover 4 _ (fun t _ => flushed_eq m c t) covered

end Cert.KernelIdeal.Array

end
-- ==== Proof.KernelRun.lean ====
/-
  The idealised kernel program as a whole: its result array is the layer over the [4, 4096, 4096] layout.

  Before the region the program flattens the activations' two leading axes and lays the scale column and the bias vector
  out as [1, 4096] rows; the region computes the layer over the [16384, 4096] matrix block by block; afterwards the
  program splits the leading axis of the result again. Reading those three host stretches around the region's array
  gives the layer in the reference's own layout.
-/
import proofs.«144594_j71725953843873_1_alg».proof.Proof.Gen.KernelIdeal.Frame
import proofs.«144594_j71725953843873_1_alg».proof.Proof.KernelArray
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.QuantLinear Idealize.ShloMosaic.StableHlo
open Idealize.ShloMosaic.Pipeline (Dat)

variable (m : (ℓ : Loc nD τ sig) → Buf (Elt Ideal) ℓ) (ρ : Dev nD → PrngReg)

/-! ## What the region finds -/

/-- The activations as the region finds them: the argument with its two leading axes flattened. -/
theorem entry_x (c : Dev nD) :
    (V m c main_v0 : S16384x4096.Idx → Elt Ideal .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The scale as the region finds it: the [4096, 1] column cast to a vector and laid out as a [1, 4096] row. -/
theorem entry_s (c : Dev nD) :
    (V m c main_v2 : S1x4096.Idx → Elt Ideal .f32)
      = broadcastInDim S1x4096 ![1] bcast_S4096_S1x4096_1
          (shapeCast S4096 (m ((c : Thread nD τ).loc main_arg2)) shapeCasts_S4096x1_S4096) := by
  show StableHlo.after hostOps0 (fun b => m (c, b)) (Proc.devRef .tc main_v2) = _
  after_results
  rfl

/-- The bias as the region finds it: the vector laid out as a [1, 4096] row. -/
theorem entry_b (c : Dev nD) :
    (V m c main_v3 : S1x4096.Idx → Elt Ideal .f32)
      = broadcastInDim S1x4096 ![1] bcast_S4096_S1x4096_1 (m ((c : Thread nD τ).loc main_arg3)) := by
  show StableHlo.after hostOps0 (fun b => m (c, b)) (Proc.devRef .tc main_v3) = _
  after_results

/-! ## The result -/

/-- The program's result buffer after the host line that follows the region: the region's output array with its
    leading axis split, which is the layer over the [4, 4096, 4096] layout of the arguments. -/
theorem result_eq (c : Dev nD) :
    Pipeline.afterTail₀ cfgs (dats m) 0 (V0 m) [hostOps1] c main_v5
      = layer3 (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = layer2 (V m c main_v0) (V m c main_arg1) (V m c main_v2) (V m c main_v3) :=
    (Pipeline.withArrays_arr spec0 launch0.win.arr_inj c _ _ 4).trans (Cert.KernelIdeal.Array.final m c)
  rw [hw, entry_x, entry_s, entry_b, V_main_arg1]
  exact layer2_of_flat _ _ _ _ _ _ _ _

/-- Every weakly fair execution of the idealised kernel program terminates with its result at the layer of the
    arguments and the arguments unchanged. -/
theorem run : θ_run defs (onTc (τ := τ) (main (F := Ideal))) ⟨m, fun _ => 0, ρ⟩ fun r => ∀ c : Dev nD,
      r.2.mem ((c.tc : Thread nD τ).loc main_v5)
        = layer3 (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference's result, index by index, is the layer over the [4, 4096, 4096] layout.

  The reference works on whole arrays: magnitudes, their maximum along the last axis, the step (kept as a trailing
  unit axis and broadcast back), the quotient, rounding, clipping, the contraction of the last axis against the
  weights' last axis, then the two dequantising products and the bias, each broadcast from its own axis. Read at
  `(b, r, n)` through the generated per-operation lemmas, every broadcast collapses to the coordinate it copies, the
  reduction is the row's fold of `max` (the one stage the generated module does not read), the contraction is the sum
  over `k`, and what is left is `outEntry` of activation row `(b, r)`, weight row `n`, scale `n`, bias `n`.
-/
import proofs.«144594_j71725953843873_1_alg».proof.Proof.Gen.ReferenceIdeal.Read
import proofs.«144594_j71725953843873_1_alg».proof.Proof.QuantSpec

noncomputable section

namespace Cert.ReferenceIdeal.RefValue

open Cert.ReferenceIdeal Cert.ReferenceIdeal.Gen Cert.ReferenceIdeal.Read
open Idealize.ShloMosaic Idealize.ShloMosaic.ValueIdx Cert.QuantLinear

/-- The step array at `(b, r, ·)`: the step of activation row `(b, r)`. -/
theorem step_apply (x0 : (⟨S4x4096x4096, .f32⟩ : BufTy).Contents (Elt Ideal)) (b : Fin 4) (r : Fin 4096) (z : Fin 1) :
    val_main_v6 (F := Ideal) x0 (ix3 b r z) = rowStep (fun k => x0 (ix3 b r k)) := by
  rw [val_main_v6_apply, val_main_v4_apply, val_main_v2_apply, val_main_v3_apply, val_main_v5_apply,
    val_main_cst_0_apply, val_main_cst_1_apply]
  have e : idx_main_v2 (ix3 b r z) = ix2 b r := funext fun a => Fin.ext (by
    match a with
    | ⟨0, _⟩ => rfl
    | ⟨1, _⟩ => rfl)
  rw [e]
  unfold val_main_v1 val_main_v0 val_main_cst
  rw [arrayRowMax x0 reducesTo_S4x4096x4096_S4x4096_d2 (by decide) h_S_ b r]
  rfl

/-- The clipped, rounded quotient at `(b, r, k)`: the entry quantised with its row's step. -/
theorem quant_apply (x0 : (⟨S4x4096x4096, .f32⟩ : BufTy).Contents (Elt Ideal)) (b : Fin 4) (r k : Fin 4096) :
    val_main_v10 (F := Ideal) x0 (ix3 b r k) = quantize (rowStep (fun k => x0 (ix3 b r k))) (x0 (ix3 b r k)) := by
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply]
  have e : idx_main_v7 (ix3 b r k) = ix3 b r (0 : Fin 1) := funext fun a => Fin.ext (by
    match a with
    | ⟨0, _⟩ => rfl
    | ⟨1, _⟩ => rfl
    | ⟨2, _⟩ => rfl)
  rw [e, step_apply]
  rfl

/-- The reference's result array is `layer3` of its arguments. -/
theorem result_eq (x0 : (⟨S4x4096x4096, .f32⟩ : BufTy).Contents (Elt Ideal)) (x1 : (⟨S4096x4096, .i32⟩ : BufTy).Contents (Elt Ideal))
    (x2 : (⟨S4096x1, .f32⟩ : BufTy).Contents (Elt Ideal)) (x3 : (⟨S4096, .f32⟩ : BufTy).Contents (Elt Ideal)) :
    val_main_v21 (F := Ideal) x0 x1 x2 x3 = layer3 x0 x1 x2 x3 := by
  funext i
  obtain ⟨b, r, n, rfl⟩ : ∃ (b : Fin 4) (r n : Fin 4096), i = ix3 b r n := ⟨i 0, i 1, i 2, eq_ix3 i⟩
  rw [val_main_v21_apply, val_main_v18_apply, val_main_v14_apply, val_main_v12_apply, val_main_v13_apply,
    val_main_v17_apply, val_main_v16_apply, val_main_v15_apply, val_main_v20_apply, val_main_v19_apply]
  have e13 : idx_main_v13 (ix3 b r n) = ix3 b r (0 : Fin 1) := funext fun a => Fin.ext (by
    match a with
    | ⟨0, _⟩ => rfl
    | ⟨1, _⟩ => rfl
    | ⟨2, _⟩ => rfl)
  have e15 : idx_main_v15 (idx_main_v16 (idx_main_v17 (ix3 b r n))) = ix2 n (0 : Fin 1) := funext fun a => Fin.ext (by
    match a with
    | ⟨0, _⟩ => show n.val / 1 = n.val; omega
    | ⟨1, _⟩ => rfl)
  have e19 : idx_main_v19 (idx_main_v20 (ix3 b r n)) = ix1 n := funext fun a => Fin.ext (by
    match a with
    | ⟨0, _⟩ => rfl)
  have el : ∀ k : Fin 4096, lidx_main_v12 (ix3 b r n) k = ix3 b r k := fun k => funext fun a => Fin.ext (by
    match a with
    | ⟨0, _⟩ => rfl
    | ⟨1, _⟩ => rfl
    | ⟨2, _⟩ => rfl)
  have er : ∀ k : Fin 4096, ridx_main_v12 (ix3 b r n) k = ix2 n k := fun k => funext fun a => Fin.ext (by
    match a with
    | ⟨0, _⟩ => rfl
    | ⟨1, _⟩ => rfl)
  rw [e13, e15, e19, step_apply]
  simp only [el, er, quant_apply, val_main_v11_apply]
  rfl

end Cert.ReferenceIdeal.RefValue

end
-- ==== Proof.lean ====
/-
  Per-token int8 quantisation of the activations followed by a linear layer with integer weights, per-channel scales and a
  bias: a Pallas kernel tiled 256 × 256 over the flattened [16384, 4096] activations against the jnp reference on the
  [4, 4096, 4096] layout.

  On the extended reals both programs compute, at `(b, r, n)`,
      ((∑ k, q k · w n k) · step) · scale n + bias n,
  where `step = max (max_k |x b r k| / 127) ε` and `q k = min 127 (max (−128) (roundHalfEven (x b r k / step)))`: the
  same operations in the same order with the same constants (`Proof/QuantSpec.lean`). The kernel's side is read off its
  frame run: the stored block at an index (`Proof/KernelEntry.lean`), the 1024 blocks tiling the region's output
  (`Proof/KernelArray.lean`), and the reshapes and row layouts around the region (`Proof/KernelRun.lean`). The reference's
  side is its run read one operation at a time (`Proof/RefValue.lean`). The two differ only in layout and in the order
  of the 4096-term sum and maximum, which commutativity and associativity of `+` and `max` absorb; the inputs'
  finiteness is not used. The three frames are the generated ones (the reference's is its run with the result
  dropped), and the idealisation rewrote nothing, so `preserves` is trivial.
-/
import proofs.«144594_j71725953843873_1_alg».proof.Defs
import proofs.«144594_j71725953843873_1_alg».proof.Proof.Gen.Kernel
import proofs.«144594_j71725953843873_1_alg».proof.Proof.Gen.Kernel.Skeleton
import proofs.«144594_j71725953843873_1_alg».proof.Proof.Gen.Kernel.Launch
import proofs.«144594_j71725953843873_1_alg».proof.Proof.Gen.Kernel.Points
import proofs.«144594_j71725953843873_1_alg».proof.Proof.Gen.Kernel.Frame
import proofs.«144594_j71725953843873_1_alg».proof.Proof.Gen.KernelIdeal
import proofs.«144594_j71725953843873_1_alg».proof.Proof.Gen.KernelIdeal.Skeleton
import proofs.«144594_j71725953843873_1_alg».proof.Proof.Gen.KernelIdeal.Launch
import proofs.«144594_j71725953843873_1_alg».proof.Proof.Gen.KernelIdeal.Points
import proofs.«144594_j71725953843873_1_alg».proof.Proof.Gen.KernelIdeal.Frame
import proofs.«144594_j71725953843873_1_alg».proof.Proof.Gen.ReferenceIdeal
import proofs.«144594_j71725953843873_1_alg».proof.Proof.Gen.Pre_finite_inputs
import proofs.«144594_j71725953843873_1_alg».proof.Proof.Gen.ReferenceIdeal.Run
import proofs.«144594_j71725953843873_1_alg».proof.Proof.Gen.ReferenceIdeal.Read
import proofs.«144594_j71725953843873_1_alg».proof.Proof.KernelRun
import proofs.«144594_j71725953843873_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `layer3` of their arguments, and the arguments agree. -/
theorem algebraic : Cert.algebraic_KernelIdeal_ReferenceIdeal := by
  intro m ρ m' ρ' _ hagree
  refine ⟨fun c => Cert.QuantLinear.layer3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
